-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S65536x1024 .f32) (main_arg1 : FVec F S1024x1024 .f32) (main_arg2 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S65536x1024 : Shape := ⟨2, ![65536, 1024]⟩
abbrev S1024x1024 : Shape := ⟨2, ![1024, 1024]⟩
abbrev S1024 : Shape := ⟨1, ![1024]⟩
abbrev S1024x256x4 : Shape := ⟨3, ![1024, 256, 4]⟩
abbrev S1024x4x256 : Shape := ⟨3, ![1024, 4, 256]⟩
abbrev S256x4 : Shape := ⟨2, ![256, 4]⟩
abbrev S4x256 : Shape := ⟨2, ![4, 256]⟩
abbrev S1x1024 : Shape := ⟨2, ![1, 1024]⟩
abbrev S1024x256 : Shape := ⟨2, ![1024, 256]⟩

abbrev nBuf : Space → Nat
  | .hbm => 12
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024x256x4, .f32⟩
  | .hbm, ⟨5, _⟩ => ⟨S1024x4x256, .f32⟩
  | .hbm, ⟨6, _⟩ => ⟨S1024x1024, .f32⟩
  | .hbm, ⟨7, _⟩ => ⟨S1024x1024, .bf16⟩
  | .hbm, ⟨8, _⟩ => ⟨S256x4, .f32⟩
  | .hbm, ⟨9, _⟩ => ⟨S4x256, .f32⟩
  | .hbm, ⟨10, _⟩ => ⟨S1x1024, .f32⟩
  | .hbm, ⟨11, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1024x1024_S1024x1024_1_0 : S1024x1024.Transposes [1, 0] S1024x1024
  shapeCasts_S1024x1024_S1024x256x4 : S1024x1024.ShapeCasts S1024x256x4
  transposes_S1024x256x4_S1024x4x256_0_2_1 : S1024x256x4.Transposes [0, 2, 1] S1024x4x256
  shapeCasts_S1024x4x256_S1024x1024 : S1024x4x256.ShapeCasts S1024x1024
  bitsLt_bf16_f32 : FTy.bits .bf16 < FTy.bits .f32
  shapeCasts_S1024_S256x4 : S1024.ShapeCasts S256x4
  transposes_S256x4_S4x256_1_0 : S256x4.Transposes [1, 0] S4x256
  shapeCasts_S4x256_S1x1024 : S4x256.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  concatenates_S1024x256_S1024x256_S1024x256_S1024x256_S1024x1024_d1 : Shape.Concatenates [S1024x256, S1024x256, S1024x256, S1024x256] S1024x1024 1
  shapeCasts_S1024x1024_S1024x4x256 : S1024x1024.ShapeCasts S1024x4x256
  transposes_S1024x4x256_p0_2_1_S1024x256x4 : S1024x4x256.Transposes [0, 2, 1] S1024x256x4
  shapeCasts_S1024x256x4_S1024x1024 : S1024x256x4.ShapeCasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S65536x1024.size a
  hwx0_3 : ∀ i : grid0.Coords, EltTy.bits .f32 = 32 ∨ (Rect.block (s := S65536x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S65536x256x4 : Shape := ⟨3, ![65536, 256, 4]⟩
abbrev S65536x256x1 : Shape := ⟨3, ![65536, 256, 1]⟩
abbrev S65536x256 : Shape := ⟨2, ![65536, 256]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024, .f32⟩
  | .hbm, ⟨3, _⟩ => ⟨S65536x1024, .f32⟩
  | .hbm, ⟨4, _⟩ => ⟨S1x1024, .f32⟩
  | .hbm, ⟨5, _⟩ => ⟨S65536x1024, .f32⟩
  | .hbm, ⟨6, _⟩ => ⟨S65536x1024, .f32⟩
  | .hbm, ⟨7, _⟩ => ⟨S65536x256x4, .f32⟩
  | .hbm, ⟨8, _⟩ => ⟨S65536x256x1, .f32⟩
  | .hbm, ⟨9, _⟩ => ⟨S65536x256, .f32⟩
  | .hbm, ⟨10, _⟩ => ⟨S65536x256, .f32⟩
  | .hbm, ⟨11, _⟩ => ⟨S65536x256x1, .f32⟩
  | .hbm, ⟨12, _⟩ => ⟨S65536x256, .f32⟩
  | .hbm, ⟨13, _⟩ => ⟨S65536x256, .f32⟩
  | .hbm, ⟨14, _⟩ => ⟨S65536x256x1, .f32⟩
  | .hbm, ⟨15, _⟩ => ⟨S65536x256, .f32⟩
  | .hbm, ⟨16, _⟩ => ⟨S_, .f32⟩
  | .hbm, ⟨17, _⟩ => ⟨S65536x256, .f32⟩
  | .hbm, ⟨18, _⟩ => ⟨S65536x256, .f32⟩
  | .hbm, ⟨19, _⟩ => ⟨S65536x256x1, .f32⟩
  | .hbm, ⟨20, _⟩ => ⟨S65536x256, .f32⟩
  | .hbm, ⟨21, _⟩ => ⟨S65536x256, .f32⟩
  | .hbm, ⟨22, _⟩ => ⟨S65536x256, .f32⟩
  | .hbm, ⟨23, _⟩ => ⟨S_, .f32⟩
  | .hbm, ⟨24, _⟩ => ⟨S65536x256, .f32⟩
  | .hbm, ⟨25, _⟩ => ⟨S65536x256, .f32⟩
  | .hbm, ⟨26, _⟩ => ⟨S_, .f32⟩
  | .hbm, ⟨27, _⟩ => ⟨S65536x256, .f32⟩
  | .hbm, ⟨28, _⟩ => ⟨S65536x256, .f32⟩
  | .hbm, ⟨29, _⟩ => ⟨S65536x256x1, .f32⟩
  | .hbm, ⟨30, _⟩ => ⟨S65536x256x1, .f32⟩
  | .hbm, ⟨31, _⟩ => ⟨S65536x256x1, .f32⟩
  | .hbm, ⟨32, _⟩ => ⟨S65536x256x1, .f32⟩
  | .hbm, ⟨33, _⟩ => ⟨S65536x256x4, .f32⟩
  | .hbm, ⟨34, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_cst : Ref sig .tc := ⟨.hbm, 16, rfl⟩
abbrev main_call0_v0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  shapeCasts_S65536x1024_S65536x256x4 : S65536x1024.ShapeCasts S65536x256x4
  slices_S65536x256x4_S65536x256x1_0_0_0 : S65536x256x4.Slices ![0, 0, 0] S65536x256x1
  shapeCasts_S65536x256x1_S65536x256 : S65536x256x1.ShapeCasts S65536x256
  slices_S65536x256x4_S65536x256x1_0_0_1 : S65536x256x4.Slices ![0, 0, 1] S65536x256x1
  slices_S65536x256x4_S65536x256x1_0_0_2 : S65536x256x4.Slices ![0, 0, 2] S65536x256x1
  bcast_S_S65536x256 : S_.BroadcastsInDim S65536x256 (![] : Fin 0 → Fin S65536x256.rank)
  slices_S65536x256x4_S65536x256x1_0_0_3 : S65536x256x4.Slices ![0, 0, 3] S65536x256x1
  bcast_S65536x256_S65536x256x1_0_1 : S65536x256.BroadcastsInDim S65536x256x1 (![0, 1] : Fin 2 → Fin S65536x256x1.rank)
  concatenates_S65536x256x1_S65536x256x1_S65536x256x1_S65536x256x1_S65536x256x4_d2 : Shape.Concatenates [S65536x256x1, S65536x256x1, S65536x256x1, S65536x256x1] S65536x256x4 2
  shapeCasts_S65536x256x4_S65536x1024 : S65536x256x4.ShapeCasts S65536x1024
  dot_S65536x1024_S1024x1024_S65536x1024_1_1_0_0_n_n_wf : DotDims.WF S65536x1024 S1024x1024 S65536x1024 [1] [1] [0] [0] [] []

variable [Facts₀]

def dot_S65536x1024_S1024x1024_S65536x1024_1_1_0_0_n_n : DotDims S65536x1024 S1024x1024 S65536x1024 where
  lhsContracting := [1]
  rhsContracting := [1]
  lhsNonContracting := [0]
  rhsNonContracting := [0]
  lhsBatch := []
  rhsBatch := []
  wf := dot_S65536x1024_S1024x1024_S65536x1024_1_1_0_0_n_n_wf

class Facts : Prop extends Facts₀ where

variable [Facts]
-- ==== Proof.Acts.lean ====
/-
  The function both programs compute, as one function of the three argument arrays.

  A row of `x` (65536 × 1024) is sent through the affine map `y[r, o] = Σ_k x[r, k] · W[o, k] + b[o]` and column `o` then
  goes through one of four activations chosen by `o mod 4`: hyperbolic tangent, sine, the positive part, the logistic
  function. Every column is `4 j + a` for exactly one group index `j < 256` and one class `a < 4`; the statements below
  are made at `(r, 4 j + a)`, which is how both programs reach an entry. The kernel computes the affine map in a
  GROUPED column order, column `256 a + j` holding what belongs to column `4 j + a`, so that each class is one
  contiguous run of 256 lanes; `grp` names that position.

  On the extended reals the logistic function IS `1 / (1 + e^(-y))` with the division's and the exponential's corner
  values, so the reference's spelled-out quotient and the kernel's single operation are one function (`logistic_quot`).
-/
import Idealize.ShloMosaic.PureOps.Ideal
import Idealize.ShloMosaic.PureOps.Ideal.Laws
import Idealize.ShloMosaic.Lib.ValueIdx
import Idealize.ShloMosaic.Lib.IdealHost

noncomputable section

namespace Cert.DenseActs

open Idealize.ShloMosaic Idealize.ShloMosaic.ValueIdx

/-- Output column `4 j + a`: group `j`, activation class `a`. -/
def col (j : Fin 256) (a : Fin 4) : Fin 1024 := ⟨4 * j.val + a.val, by have := j.isLt; have := a.isLt; omega⟩

/-- The same column's place in the grouped order: class `a`'s run of 256 lanes, lane `j`. -/
def grp (a : Fin 4) (j : Fin 256) : Fin 1024 := ⟨256 * a.val + j.val, by have := j.isLt; have := a.isLt; omega⟩

@[simp] theorem col_val (j : Fin 256) (a : Fin 4) : (col j a).val = 4 * j.val + a.val := rfl
@[simp] theorem grp_val (a : Fin 4) (j : Fin 256) : (grp a j).val = 256 * a.val + j.val := rfl

/-- The activation of class `a`, on the extended reals. -/
def act (a : Fin 4) (y : EReal) : EReal :=
  match a with
  | 0 => Ideal.tanh y
  | 1 => Ideal.sin y
  | 2 => max y 0
  | 3 => Ideal.logistic y

theorem act_zero (y : EReal) : act 0 y = Ideal.tanh y := rfl
theorem act_one (y : EReal) : act 1 y = Ideal.sin y := rfl
theorem act_two (y : EReal) : act 2 y = max y 0 := rfl
theorem act_three (y : EReal) : act 3 y = Ideal.logistic y := rfl

/-- The logistic function is the quotient `1 / (1 + e^(-y))` the reference spells out, at every extended real. -/
theorem logistic_quot (y : EReal) : Ideal.div 1 (1 + Ideal.exp (-y)) = Ideal.logistic y := rfl

/-- The affine map at row `r`, column `o`. -/
def lin (x : (⟨2, ![65536, 1024]⟩ : Shape).Idx → EReal) (W : (⟨2, ![1024, 1024]⟩ : Shape).Idx → EReal)
    (b : (⟨1, ![1024]⟩ : Shape).Idx → EReal) (r : Fin 65536) (o : Fin 1024) : EReal :=
  (∑ k : Fin 1024, x (ix2 r k) * W (ix2 o k)) + b (ix1 o)

/-- The result array: at `(r, o)`, the activation of class `o mod 4` of the affine map. -/
def G (x : (⟨2, ![65536, 1024]⟩ : Shape).Idx → EReal) (W : (⟨2, ![1024, 1024]⟩ : Shape).Idx → EReal)
    (b : (⟨1, ![1024]⟩ : Shape).Idx → EReal) : (⟨2, ![65536, 1024]⟩ : Shape).Idx → EReal :=
  fun i => act ⟨(i 1).val % 4, Nat.mod_lt _ (by decide)⟩ (lin x W b (i 0) (i 1))

/-- Every column is `4 j + a`. -/
theorem exists_col (o : Fin 1024) : ∃ (j : Fin 256) (a : Fin 4), o = col j a :=
  ⟨⟨o.val / 4, by have := o.isLt; omega⟩, ⟨o.val % 4, Nat.mod_lt _ (by decide)⟩, Fin.ext (by show o.val = 4 * (o.val / 4) + o.val % 4; omega)⟩

theorem G_at (x : (⟨2, ![65536, 1024]⟩ : Shape).Idx → EReal) (W : (⟨2, ![1024, 1024]⟩ : Shape).Idx → EReal)
    (b : (⟨1, ![1024]⟩ : Shape).Idx → EReal) (r : Fin 65536) (j : Fin 256) (a : Fin 4) :
    G x W b (ix2 r (col j a)) = act a (lin x W b r (col j a)) := by
  show act ⟨(col j a).val % 4, _⟩ _ = _
  congr 1
  exact Fin.ext (by show (4 * j.val + a.val) % 4 = a.val; have := a.isLt; omega)

/-- An array that has the activation of the affine map at every `(r, 4 j + a)` is the result array. -/
theorem eq_G (x : (⟨2, ![65536, 1024]⟩ : Shape).Idx → EReal) (W : (⟨2, ![1024, 1024]⟩ : Shape).Idx → EReal)
    (b : (⟨1, ![1024]⟩ : Shape).Idx → EReal) (f : (⟨2, ![65536, 1024]⟩ : Shape).Idx → EReal)
    (h : ∀ (r : Fin 65536) (j : Fin 256) (a : Fin 4), f (ix2 r (col j a)) = act a (lin x W b r (col j a))) :
    f = G x W b := by
  funext i
  obtain ⟨j, a, ho⟩ := exists_col (i 1)
  have hi : i = ix2 (n0 := 65536) (n1 := 1024) (i 0) (col j a) :=
    (eq_ix2 i).trans (congrArg (ix2 (n0 := 65536) (n1 := 1024) (i 0)) ho)
  calc f i = f (ix2 (i 0) (col j a)) := congrArg f hi
    _ = act a (lin x W b (i 0) (col j a)) := h _ _ _
    _ = G x W b (ix2 (i 0) (col j a)) := (G_at x W b _ _ _).symm
    _ = G x W b i := congrArg (G x W b) hi.symm

end Cert.DenseActs

end
-- ==== Proof.LibConcatFour.lean ====
/-
  A concatenation of FOUR pieces of one shape along an axis, read at an index.

  The four pieces have extent `K` along the joined axis, so the result's coordinate `c` on that axis falls in piece
  `c / K` at coordinate `c % K`, every other coordinate unchanged. The literal four-element list is the list of the
  family `![x0, x1, x2, x3]`, which is how the library states a concatenation of pieces of one shape.
-/
import Idealize.ShloMosaic.Lib.Pipeline.Value

noncomputable section

namespace Idealize.ShloMosaic.ConcatFour

open Idealize.ShloMosaic

/-- Four pieces of one shape `s₁` joined along axis `a`, read at `j`: piece `n = (j a) / K` at the index `i` that has
    `(j a) % K` on the joined axis and `j`'s coordinates elsewhere. -/
theorem concatenate_four_apply {α : Type} {t s₁ : Shape} (a : Fin t.rank) (x0 x1 x2 x3 : s₁.Idx → α)
    (h : Shape.Concatenates [s₁, s₁, s₁, s₁] t a) (hr : s₁.rank = t.rank) (K : Nat) (hK : s₁.size (a.cast hr.symm) = K)
    (j : t.Idx) (n : Fin 4) (hn : (j a).val / K = n.val) (i : s₁.Idx)
    (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩, ⟨s₁, x3⟩] h j = (![x0, x1, x2, x3] n) i :=
  concatenate_ofFn_apply a (fun n : Fin 4 => ![x0, x1, x2, x3] n) h hr K hK j n hn i hia hi

end Idealize.ShloMosaic.ConcatFour

end
-- ==== Proof.RefSide.lean ====
/-
  The reference's result is the result array `G` of the three arguments.

  The reference forms the affine map `y = x · Wᵀ + b` whole, views it as 65536 × 256 × 4, cuts out the four classes
  `y[·, ·, a]`, applies class `a`'s activation to each, and joins the four along the last axis before flattening back. So
  its entry `(r, 4 j + a)` is entry `(r, j, a)` of the joined array, which is piece `a` at `(r, j, 0)`, which is the
  activation of `y[r, j, a] = y[r, 4 j + a]`. Each step is one stage read at an index; the index arithmetic is that of
  row-major positions (`(r · 256 + j) · 4 + a = r · 1024 + (4 j + a)`).

  The logistic class is spelled `1 / (1 + e^(-y))` in the reference with both ones the word `0x3F800000`; that is the
  logistic function of the extended reals.
-/
import proofs.«419013_j51281909514270_3_alg».proof.Proof.Gen.ReferenceIdeal.Read
import proofs.«419013_j51281909514270_3_alg».proof.Proof.Acts
import proofs.«419013_j51281909514270_3_alg».proof.Proof.LibConcatFour
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx Idealize.ShloMosaic.ConcatFour Cert.DenseActs

variable (x : (⟨S65536x1024, .f32⟩ : BufTy).Contents (Elt Ideal)) (W : (⟨S1024x1024, .f32⟩ : BufTy).Contents (Elt Ideal))
  (b : (⟨S1024, .f32⟩ : BufTy).Contents (Elt Ideal))

/-! ## Where each stage reads its operand -/

theorem at_flat (r : Fin 65536) (j : Fin 256) (a : Fin 4) : idx_main_v27 (ix2 r (col j a)) = ix3 r j a :=
  funext fun d => Fin.ext (by
    have hj := j.isLt; have ha := a.isLt
    match d with
    | ⟨0, _⟩ => show (r.val * 1024 + (4 * j.val + a.val)) / 1024 = r.val; omega
    | ⟨1, _⟩ => show (r.val * 1024 + (4 * j.val + a.val)) / 4 % 256 = j.val; omega
    | ⟨2, _⟩ => show (r.val * 1024 + (4 * j.val + a.val)) % 4 = a.val; omega)

theorem at_view (r : Fin 65536) (j : Fin 256) (a : Fin 4) : idx_main_v4 (ix3 r j a) = ix2 r (col j a) :=
  funext fun d => Fin.ext (by
    have hj := j.isLt; have ha := a.isLt
    match d with
    | ⟨0, _⟩ => show ((r.val * 256 + j.val) * 4 + a.val) / 1024 = r.val; omega
    | ⟨1, _⟩ => show ((r.val * 256 + j.val) * 4 + a.val) % 1024 = 4 * j.val + a.val; omega)

theorem at_bias_row (r : Fin 65536) (o : Fin 1024) : idx_main_v2 (ix2 r o) = ix2 (0 : Fin 1) o :=
  funext fun d => Fin.ext (by match d with | ⟨0, _⟩ => rfl | ⟨1, _⟩ => rfl)
theorem at_bias (o : Fin 1024) : idx_main_v1 (ix2 (0 : Fin 1) o) = ix1 o :=
  funext fun d => Fin.ext (by match d with | ⟨0, _⟩ => rfl)
theorem at_lhs (r : Fin 65536) (o k : Fin 1024) : lidx_main_v0 (ix2 r o) k = ix2 r k :=
  funext fun d => Fin.ext (by match d with | ⟨0, _⟩ => rfl | ⟨1, _⟩ => rfl)
theorem at_rhs (r : Fin 65536) (o k : Fin 1024) : ridx_main_v0 (ix2 r o) k = ix2 o k :=
  funext fun d => Fin.ext (by match d with | ⟨0, _⟩ => rfl | ⟨1, _⟩ => rfl)

theorem at_cut0 (r : Fin 65536) (j : Fin 256) : idx_main_v5 (ix3 r j (0 : Fin 1)) = ix3 r j (0 : Fin 4) :=
  funext fun d => Fin.ext (by match d with | ⟨0, _⟩ => rfl | ⟨1, _⟩ => rfl | ⟨2, _⟩ => rfl)
theorem at_cut1 (r : Fin 65536) (j : Fin 256) : idx_main_v8 (ix3 r j (0 : Fin 1)) = ix3 r j (1 : Fin 4) :=
  funext fun d => Fin.ext (by match d with | ⟨0, _⟩ => rfl | ⟨1, _⟩ => rfl | ⟨2, _⟩ => rfl)
theorem at_cut2 (r : Fin 65536) (j : Fin 256) : idx_main_v11 (ix3 r j (0 : Fin 1)) = ix3 r j (2 : Fin 4) :=
  funext fun d => Fin.ext (by match d with | ⟨0, _⟩ => rfl | ⟨1, _⟩ => rfl | ⟨2, _⟩ => rfl)
theorem at_cut3 (r : Fin 65536) (j : Fin 256) : idx_main_v14 (ix3 r j (0 : Fin 1)) = ix3 r j (3 : Fin 4) :=
  funext fun d => Fin.ext (by match d with | ⟨0, _⟩ => rfl | ⟨1, _⟩ => rfl | ⟨2, _⟩ => rfl)

theorem at_drop0 (r : Fin 65536) (j : Fin 256) : idx_main_v6 (ix2 r j) = ix3 r j (0 : Fin 1) :=
  funext fun d => Fin.ext (by
    have hj := j.isLt
    match d with
    | ⟨0, _⟩ => show (r.val * 256 + j.val) / 256 = r.val; omega
    | ⟨1, _⟩ => show (r.val * 256 + j.val) / 1 % 256 = j.val; omega
    | ⟨2, _⟩ => rfl)
theorem at_drop1 (r : Fin 65536) (j : Fin 256) : idx_main_v9 (ix2 r j) = ix3 r j (0 : Fin 1) := at_drop0 r j
theorem at_drop2 (r : Fin 65536) (j : Fin 256) : idx_main_v12 (ix2 r j) = ix3 r j (0 : Fin 1) := at_drop0 r j
theorem at_drop3 (r : Fin 65536) (j : Fin 256) : idx_main_v15 (ix2 r j) = ix3 r j (0 : Fin 1) := at_drop0 r j

theorem at_unit0 (r : Fin 65536) (j : Fin 256) : idx_main_v22 (ix3 r j (0 : Fin 1)) = ix2 r j :=
  funext fun d => Fin.ext (by match d with | ⟨0, _⟩ => rfl | ⟨1, _⟩ => rfl)
theorem at_unit1 (r : Fin 65536) (j : Fin 256) : idx_main_v23 (ix3 r j (0 : Fin 1)) = ix2 r j := at_unit0 r j
theorem at_unit2 (r : Fin 65536) (j : Fin 256) : idx_main_v24 (ix3 r j (0 : Fin 1)) = ix2 r j := at_unit0 r j
theorem at_unit3 (r : Fin 65536) (j : Fin 256) : idx_main_v25 (ix3 r j (0 : Fin 1)) = ix2 r j := at_unit0 r j

/-! ## The affine map, in its 65536 × 256 × 4 view -/

theorem affine_at (r : Fin 65536) (j : Fin 256) (a : Fin 4) :
    val_main_v4 (F := Ideal) x W b (ix3 r j a) = lin x W b r (col j a) := by
  rw [val_main_v4_apply, at_view, val_main_v3_apply, val_main_v0_apply, val_main_v2_apply, at_bias_row, val_main_v1_apply, at_bias]
  simp only [at_lhs, at_rhs]
  rfl

/-! ## The four classes, each at `(r, j, 0)` -/

theorem tanh_piece (r : Fin 65536) (j : Fin 256) :
    val_main_v22 (F := Ideal) x W b (ix3 r j (0 : Fin 1)) = act 0 (lin x W b r (col j 0)) := by
  rw [val_main_v22_apply, at_unit0, val_main_v7_apply, val_main_v6_apply, at_drop0, val_main_v5_apply, at_cut0, affine_at]
  rfl

theorem sin_piece (r : Fin 65536) (j : Fin 256) :
    val_main_v23 (F := Ideal) x W b (ix3 r j (0 : Fin 1)) = act 1 (lin x W b r (col j 1)) := by
  rw [val_main_v23_apply, at_unit1, val_main_v10_apply, val_main_v9_apply, at_drop1, val_main_v8_apply, at_cut1, affine_at]
  rfl

theorem relu_piece (r : Fin 65536) (j : Fin 256) :
    val_main_v24 (F := Ideal) x W b (ix3 r j (0 : Fin 1)) = act 2 (lin x W b r (col j 2)) := by
  rw [val_main_v24_apply, at_unit2, val_main_v13_apply, val_main_v12_apply, at_drop2, val_main_v11_apply, at_cut2, affine_at,
    val_main_call0_v0_apply, val_main_call0_cst_apply]
  show max _ (Ideal.ofBits .f32 0x00000000#32) = max _ 0
  rw [Ideal.ofBits_zero_f32]

theorem logistic_piece (r : Fin 65536) (j : Fin 256) :
    val_main_v25 (F := Ideal) x W b (ix3 r j (0 : Fin 1)) = act 3 (lin x W b r (col j 3)) := by
  rw [val_main_v25_apply, at_unit3, val_main_v21_apply, val_main_v20_apply, val_main_cst_0_apply, val_main_v19_apply,
    val_main_v18_apply, val_main_cst_apply, val_main_v17_apply, val_main_v16_apply, val_main_v15_apply, at_drop3,
    val_main_v14_apply, at_cut3, affine_at]
  show Ideal.div (Ideal.ofBits .f32 0x3F800000#32) (Ideal.ofBits .f32 0x3F800000#32 + Ideal.exp (-_)) = Ideal.logistic _
  rw [Ideal.ofBits_one_f32]
  rfl

/-! ## The joined array and the result -/

theorem joined_at (r : Fin 65536) (j : Fin 256) (a : Fin 4) :
    val_main_v26 (F := Ideal) x W b (ix3 r j a) = act a (lin x W b r (col j a)) := by
  unfold val_main_v26
  refine (concatenate_four_apply (t := S65536x256x4) (s₁ := S65536x256x1) (2 : Fin 3) _ _ _ _ _ rfl 1 rfl (ix3 r j a) a
    (Nat.div_one _) (ix3 r j (0 : Fin 1)) (by show 0 = a.val % 1; omega)
    (fun d hd => by match d with | ⟨0, _⟩ => rfl | ⟨1, _⟩ => rfl | ⟨2, _⟩ => exact absurd rfl hd)).trans ?_
  match a with
  | ⟨0, _⟩ => exact tanh_piece x W b r j
  | ⟨1, _⟩ => exact sin_piece x W b r j
  | ⟨2, _⟩ => exact relu_piece x W b r j
  | ⟨3, _⟩ => exact logistic_piece x W b r j

/-- The reference's last stage is the result array of the arguments. -/
theorem ref_eq : val_main_v27 (F := Ideal) x W b = G x W b :=
  eq_G x W b _ fun r j a => by rw [val_main_v27_apply, at_flat, joined_at]

end Cert.ReferenceIdeal.RefValue

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.Payload.lean ====
/-
  What the kernel body stores, read at one entry of the 1024 × 1024 block.

  From a block `x0` of 1024 rows of `x`, the grouped weight matrix `x1` and the grouped bias row `x2`, the body forms
  `y[p, c] = Σ_k x0[p, k] · x1[k, c] + x2[0, c]` (the narrowing of `x0` to a shorter float format is the identity on the
  extended reals, and the product starts from a zero accumulator). Columns `256 a .. 256 a + 255` of `y` go through class
  `a`'s activation; the four results are joined side by side and then re-laid: viewed as 1024 × 4 × 256, the last two
  axes swapped, flattened to 1024 × 1024. So entry `(p, 4 j + a)` of what is stored is entry `(p, j, a)` of the swapped
  array, entry `(p, a, j)` before the swap, entry `(p, 256 a + j)` of the joined array: class `a`'s activation of
  `y[p, 256 a + j]`.
-/
import proofs.«419013_j51281909514270_3_alg».proof.Proof.Gen.KernelIdeal.Skeleton
import proofs.«419013_j51281909514270_3_alg».proof.Proof.Acts
import proofs.«419013_j51281909514270_3_alg».proof.Proof.LibConcatFour
import proofs.«419013_j51281909514270_3_alg».proof.Proof.LibDot
import Idealize.ShloMosaic.Lib.Pipeline.Value
import Idealize.ShloMosaic.Lib.ValueLayout
import Idealize.ShloMosaic.Lib.IdealHost

noncomputable section

namespace Cert.KernelIdeal.Payload

open Cert.KernelIdeal Cert.KernelIdeal.Gen
open Idealize.ShloMosaic Idealize.ShloMosaic.ValueIdx Idealize.ShloMosaic.ConcatFour Cert.DenseActs

variable (x0 : FVec Ideal S1024x1024 .f32) (x1 : FVec Ideal S1024x1024 .bf16) (x2 : FVec Ideal S1x1024 .f32)

/-- The affine map of the loaded blocks, in the grouped column order, at `(p, c)`. -/
def ygrp (p c : Fin 1024) : EReal := (∑ k : Fin 1024, x0 (ix2 p k) * x1 (ix2 k c)) + x2 (ix2 (0 : Fin 1) c)

/-- The product plus the broadcast bias row, at `(p, c)`. -/
theorem affine_at (p c : Fin 1024) :
    addf (F := Ideal) (matmul dot_S1024x1024_S1024x1024_S1024x1024_1_0_0_1_n_n none (truncf .bf16 x0 bitsLt_bf16_f32)
        (shapeCast S1024x1024 x1 shapeCasts_S1024x1024_S1024x1024) (constant S1024x1024 .f32 0x00000000#32))
      (broadcastTo S1024x1024 (shapeCast S1x1024 x2 shapeCasts_S1x1024_S1x1024) broadcasts_S1x1024_S1024x1024) (ix2 p c)
      = ygrp x0 x1 x2 p c := by
  rw [shapeCast_self, shapeCast_self]
  show FloatOps.matmul (F := Ideal) _ none (truncf .bf16 x0 bitsLt_bf16_f32) x1 (constant S1024x1024 .f32 0x00000000#32) (ix2 p c)
      + broadcastTo S1024x1024 x2 broadcasts_S1x1024_S1024x1024 (ix2 p c) = _
  rw [Cert.LibDot.matmul_zero_at _ rfl rfl rfl rfl rfl rfl, broadcastTo_1b_ab_apply]
  rfl

/-- THE STORED VALUE at `(p, 4 j + a)`: class `a`'s activation of the grouped affine map at `(p, 256 a + j)`. -/
theorem pay_at (p : Fin 1024) (j : Fin 256) (a : Fin 4) :
    k0_pay1 (F := Ideal) x0 x1 x2 (ix2 p (col j a)) = act a (ygrp x0 x1 x2 p (grp a j)) := by
  have hj := j.isLt
  have ha := a.isLt
  unfold k0_pay1
  refine (shapeCast_apply _ shapeCasts_S1024x256x4_S1024x1024 (ix2 p (col j a)) (ix3 p j a) ?_).trans ?_
  · rw [Shape.rowMajor_val_three, Shape.rowMajor_val_two]
    show (p.val * 256 + j.val) * 4 + a.val = p.val * 1024 + (4 * j.val + a.val)
    omega
  refine (transpose_ix3_021_apply _ transposes_S1024x4x256_p0_2_1_S1024x256x4 p j a).trans ?_
  refine (shapeCast_apply _ shapeCasts_S1024x1024_S1024x4x256 (ix3 p a j) (ix2 p (grp a j)) ?_).trans ?_
  · rw [Shape.rowMajor_val_two, Shape.rowMajor_val_three]
    show p.val * 1024 + (256 * a.val + j.val) = (p.val * 4 + a.val) * 256 + j.val
    omega
  refine (concatenate_four_apply (t := S1024x1024) (s₁ := S1024x256) (1 : Fin 2) _ _ _ _ _ rfl 256 rfl (ix2 p (grp a j)) a
    (by show (256 * a.val + j.val) / 256 = a.val; omega) (ix2 p j)
    (by show j.val = (256 * a.val + j.val) % 256; omega)
    (fun d hd => by match d with | ⟨0, _⟩ => rfl | ⟨1, _⟩ => exact absurd rfl hd)).trans ?_
  match a with
  | ⟨0, _⟩ =>
    exact congrArg Ideal.tanh ((slice2_axis1_apply 0 _ slices_S1024x1024_o0_0_S1024x256 p j (grp 0 j)
      (by show 256 * 0 + j.val = 0 + j.val; omega)).trans (affine_at x0 x1 x2 p (grp 0 j)))
  | ⟨1, _⟩ =>
    exact congrArg Ideal.sin ((slice2_axis1_apply 256 _ slices_S1024x1024_o0_256_S1024x256 p j (grp 1 j)
      (by show 256 * 1 + j.val = 256 + j.val; omega)).trans (affine_at x0 x1 x2 p (grp 1 j)))
  | ⟨2, _⟩ =>
    show max _ (Ideal.ofBits .f32 0x00000000#32) = max _ 0
    rw [Ideal.ofBits_zero_f32]
    exact congrArg (max · 0) ((slice2_axis1_apply 512 _ slices_S1024x1024_o0_512_S1024x256 p j (grp 2 j)
      (by show 256 * 2 + j.val = 512 + j.val; omega)).trans (affine_at x0 x1 x2 p (grp 2 j)))
  | ⟨3, _⟩ =>
    exact congrArg Ideal.logistic ((slice2_axis1_apply 768 _ slices_S1024x1024_o0_768_S1024x256 p j (grp 3 j)
      (by show 256 * 3 + j.val = 768 + j.val; omega)).trans (affine_at x0 x1 x2 p (grp 3 j)))

end Cert.KernelIdeal.Payload

end
-- ==== Proof.HostPrep.lean ====
/-
  The two arrays the host prepares before the kernel runs, read at an entry.

  The weight matrix is transposed, viewed as 1024 × 256 × 4, its last two axes swapped, flattened back to 1024 × 1024
  and narrowed to a shorter float format (the identity on the extended reals): entry `(k, 256 a + j)` of the result is
  entry `(k, a, j)` after the swap, `(k, j, a)` before it, `(k, 4 j + a)` of the transpose, `W[4 j + a, k]`.
  The bias is viewed as 256 × 4, transposed and flattened to one row: entry `(0, 256 a + j)` is `(a, j)` of the
  transpose, `(j, a)` of the view, `b[4 j + a]`.
  So column `256 a + j` of both prepared arrays carries what belongs to output column `4 j + a`.
-/
import proofs.«419013_j51281909514270_3_alg».proof.Proof.Gen.KernelIdeal.Frame
import proofs.«419013_j51281909514270_3_alg».proof.Proof.Acts
import Idealize.ShloMosaic.Lib.Pipeline.Value
import Idealize.ShloMosaic.Lib.ValueLayout
import Idealize.ShloMosaic.Lib.StableHlo.Run

noncomputable section

namespace Cert.KernelIdeal.HostPrep

open Cert.KernelIdeal Cert.KernelIdeal.Gen
open Idealize.ShloMosaic Idealize.ShloMosaic.TcCoe Idealize.SL.Sem Idealize.ShloMosaic.ValueIdx Cert.DenseActs

variable (m : (ℓ : Loc nD τ sig) → Buf (Elt Ideal) ℓ)

/-- The prepared weight array, as the host operations' term of the weight argument. -/
theorem weights_eq (c : Dev nD) :
    (V m c main_v4 : S1024x1024.Idx → EReal) =
      truncf (F := Ideal) .bf16 (shapeCast S1024x1024 (transpose S1024x4x256 [0, 2, 1] (shapeCast S1024x256x4
        (transpose S1024x1024 [1, 0] (m ((c : Thread nD τ).loc main_arg1)) transposes_S1024x1024_S1024x1024_1_0)
        shapeCasts_S1024x1024_S1024x256x4) transposes_S1024x256x4_S1024x4x256_0_2_1) shapeCasts_S1024x4x256_S1024x1024)
        bitsLt_bf16_f32 := by
  dsimp only [V, hostOps0]
  after_results
  rfl

/-- The prepared bias row, as the host operations' term of the bias argument. -/
theorem bias_eq (c : Dev nD) :
    (V m c main_v7 : S1x1024.Idx → EReal) =
      shapeCast S1x1024 (transpose S4x256 [1, 0] (shapeCast S256x4 (m ((c : Thread nD τ).loc main_arg2))
        shapeCasts_S1024_S256x4) transposes_S256x4_S4x256_1_0) shapeCasts_S4x256_S1x1024 := by
  dsimp only [V, hostOps0]
  after_results
  rfl

/-- Column `256 a + j` of the prepared weights, row `k`, is `W[4 j + a, k]`. -/
theorem weights_at (c : Dev nD) (k : Fin 1024) (j : Fin 256) (a : Fin 4) :
    (V m c main_v4 : S1024x1024.Idx → EReal) (ix2 k (grp a j))
      = (m ((c : Thread nD τ).loc main_arg1) : S1024x1024.Idx → EReal) (ix2 (col j a) k) := by
  have hj := j.isLt
  have ha := a.isLt
  rw [weights_eq]
  refine (truncf_apply _ bitsLt_bf16_f32 (ix2 k (grp a j))).trans ?_
  refine (shapeCast_apply _ shapeCasts_S1024x4x256_S1024x1024 (ix2 k (grp a j)) (ix3 k a j) ?_).trans ?_
  · rw [Shape.rowMajor_val_three, Shape.rowMajor_val_two]
    show (k.val * 4 + a.val) * 256 + j.val = k.val * 1024 + (256 * a.val + j.val)
    omega
  refine (transpose_ix3_021_apply _ transposes_S1024x256x4_S1024x4x256_0_2_1 k a j).trans ?_
  refine (shapeCast_apply _ shapeCasts_S1024x1024_S1024x256x4 (ix3 k j a) (ix2 k (col j a)) ?_).trans ?_
  · rw [Shape.rowMajor_val_two, Shape.rowMajor_val_three]
    show k.val * 1024 + (4 * j.val + a.val) = (k.val * 256 + j.val) * 4 + a.val
    omega
  exact transpose_ix2_apply _ transposes_S1024x1024_S1024x1024_1_0 k (col j a)

/-- Column `256 a + j` of the prepared bias row is `b[4 j + a]`. -/
theorem bias_at (c : Dev nD) (j : Fin 256) (a : Fin 4) :
    (V m c main_v7 : S1x1024.Idx → EReal) (ix2 (0 : Fin 1) (grp a j))
      = (m ((c : Thread nD τ).loc main_arg2) : S1024.Idx → EReal) (ix1 (col j a)) := by
  have hj := j.isLt
  have ha := a.isLt
  rw [bias_eq]
  refine (shapeCast_apply _ shapeCasts_S4x256_S1x1024 (ix2 (0 : Fin 1) (grp a j)) (ix2 a j) ?_).trans ?_
  · rw [Shape.rowMajor_val_two, Shape.rowMajor_val_two]
    show a.val * 256 + j.val = 0 * 1024 + (256 * a.val + j.val)
    omega
  refine (transpose_ix2_apply _ transposes_S256x4_S4x256_1_0 a j).trans ?_
  refine shapeCast_apply _ shapeCasts_S1024_S256x4 (ix2 j a) (ix1 (col j a)) ?_
  rw [Shape.rowMajor_val_one, Shape.rowMajor_val_two]
  show 4 * j.val + a.val = j.val * 4 + a.val
  omega

end Cert.KernelIdeal.HostPrep

end
-- ==== Proof.KernelValue.lean ====
/-
  The kernel's result array is the result array `G` of the three arguments.

  The grid has 64 points; point `t` works on rows `1024 t .. 1024 t + 1023` of `x` and of the output, and on the WHOLE
  prepared weight matrix and bias row (their block index is always zero). What point `t` stores at `(p, 4 j + a)` of its
  output block is class `a`'s activation of `Σ_k x[1024 t + p, k] · Wg[k, 256 a + j] + bg[0, 256 a + j]`; the prepared
  arrays hold `W[4 j + a, k]` and `b[4 j + a]` there, so this is `G` at `(1024 t + p, 4 j + a)`: the block written back
  is block `t` of `G`. Row `i` lies in the block of point `i / 1024`, so the 64 blocks cover the output and it ends
  equal to `G` everywhere.
-/
import proofs.«419013_j51281909514270_3_alg».proof.Proof.Gen.KernelIdeal.Value
import proofs.«419013_j51281909514270_3_alg».proof.Proof.Acts
import proofs.«419013_j51281909514270_3_alg».proof.Proof.Payload
import proofs.«419013_j51281909514270_3_alg».proof.Proof.HostPrep

noncomputable section

namespace Cert.KernelIdeal.KernelValue

open Cert.KernelIdeal Cert.KernelIdeal.Gen Cert.KernelIdeal.Value Cert.KernelIdeal.Payload Cert.KernelIdeal.HostPrep
open Idealize.ShloMosaic Idealize.ShloMosaic.TcCoe Idealize.SL.Sem Idealize.ShloMosaic.ValueIdx Cert.DenseActs
open Idealize.ShloMosaic.Pipeline (Dat)

/-! ## One block, over plain arrays -/

/-- If a block `X0` holds rows `1024 T ..` of `x`, and `X1`, `X2` hold `W` and `b` in the grouped column order, then what the
    body stores at `y` is `G` at row `1024 T + y₀`, column `y₁`. -/
theorem block_eq (X0 : FVec Ideal S1024x1024 .f32) (X1 : FVec Ideal S1024x1024 .bf16) (X2 : FVec Ideal S1x1024 .f32)
    (x : (⟨2, ![65536, 1024]⟩ : Shape).Idx → EReal) (W : (⟨2, ![1024, 1024]⟩ : Shape).Idx → EReal)
    (b : (⟨1, ![1024]⟩ : Shape).Idx → EReal) (row : Fin 1024 → Fin 65536)
    (h0 : ∀ (p k : Fin 1024), X0 (ix2 p k) = x (ix2 (row p) k))
    (h1 : ∀ (k : Fin 1024) (j : Fin 256) (a : Fin 4), X1 (ix2 k (grp a j)) = W (ix2 (col j a) k))
    (h2 : ∀ (j : Fin 256) (a : Fin 4), X2 (ix2 (0 : Fin 1) (grp a j)) = b (ix1 (col j a)))
    (p o : Fin 1024) :
    k0_pay1 (F := Ideal) X0 X1 X2 (ix2 p o) = G x W b (ix2 (row p) o) := by
  obtain ⟨j, a, rfl⟩ := exists_col o
  rw [pay_at, G_at]
  unfold ygrp lin
  simp only [h0, h1, h2]

/-! ## The grid's blocks -/

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 64 points: the `x` window and the output window are at block row `t`, the
    prepared weights and bias always at block zero. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The result array of the arguments as the launch finds them. -/
abbrev result (c : Dev nD) : S65536x1024.Idx → EReal :=
  G (m ((c : Thread nD τ).loc main_arg0)) (m ((c : Thread nD τ).loc main_arg1)) (m ((c : Thread nD τ).loc main_arg2))

/-- Row `1024 t + p` of the arrays. -/
def rowOf (t : Fin cfg0.N) (p : Fin 1024) : Fin 65536 :=
  ⟨t.val * 1024 + p.val, by have ht : t.val < 64 := N_0 ▸ t.isLt; have := p.isLt; omega⟩

/-- WHAT POINT `t` WRITES BACK is block `t` of the result array. -/
theorem flushed_eq (c : Dev nD) (t : Fin cfg0.N) :
    (dats m 0 c).flushed 3 t = ((cfg0.win 3).blk t).view.read (Elt Ideal) (result m c) := by
  rw [flushed3]
  unfold out0_3
  rw [View.canon_unit_zero zero_offsets]
  simp only [View.ld_unit_zero (S := S1024x1024) zero_offsets, View.ld_unit_zero (S := S1x1024) zero_offsets]
  obtain ⟨e00, e01, e10, e11, e20, e21, e30, e31⟩ := index_maps t
  funext y
  show k0_pay1 (F := Ideal) (iblk m c 0 t) (iblk m c 1 t) (iblk m c 2 t) y = result m c (((cfg0.win 3).blk t).view.emb y)
  have hy : y = ix2 (n0 := 1024) (n1 := 1024) (y 0) (y 1) := eq_ix2 y
  have hemb : ((cfg0.win 3).blk t).view.emb y = ix2 (n0 := 65536) (n1 := 1024) (rowOf t (y 0)) (y 1) := by
    funext a; apply Fin.ext
    match a with
    | ⟨0, _⟩ => show win0_3.index t (0 : Fin 2) * 1024 + 1 * (y 0).val = t.val * 1024 + (y 0).val; omega
    | ⟨1, _⟩ => show win0_3.index t (1 : Fin 2) * 1024 + 1 * (y 1).val = (y 1).val; omega
  rw [hemb, hy]
  refine block_eq (iblk m c 0 t) (iblk m c 1 t) (iblk m c 2 t) _ _ _ (rowOf t) ?_ ?_ ?_ (y 0) (y 1)
  · intro p k
    show V m c main_arg0 (((cfg0.win 0).blk t).view.emb (ix2 p k)) = _
    rw [V_main_arg0]
    refine congrArg (m ((c : Thread nD τ).loc main_arg0)) ?_
    funext a; apply Fin.ext
    match a with
    | ⟨0, _⟩ => show win0_0.index t (0 : Fin 2) * 1024 + 1 * p.val = t.val * 1024 + p.val; omega
    | ⟨1, _⟩ => show win0_0.index t (1 : Fin 2) * 1024 + 1 * k.val = k.val; omega
  · intro k j a
    show V m c main_v4 (((cfg0.win 1).blk t).view.emb (ix2 k (grp a j))) = _
    refine Eq.trans (congrArg (V m c main_v4) ?_) (weights_at m c k j a)
    funext d; apply Fin.ext
    match d with
    | ⟨0, _⟩ => show win0_1.index t (0 : Fin 2) * 1024 + 1 * k.val = k.val; omega
    | ⟨1, _⟩ => show win0_1.index t (1 : Fin 2) * 1024 + 1 * (grp a j).val = (grp a j).val; omega
  · intro j a
    show V m c main_v7 (((cfg0.win 2).blk t).view.emb (ix2 (0 : Fin 1) (grp a j))) = _
    refine Eq.trans (congrArg (V m c main_v7) ?_) (bias_at m c j a)
    funext d; apply Fin.ext
    match d with
    | ⟨0, _⟩ => show win0_2.index t (0 : Fin 2) * 1 + 1 * 0 = 0; omega
    | ⟨1, _⟩ => show win0_2.index t (1 : Fin 2) * 1024 + 1 * (grp a j).val = (grp a j).val; omega

/-- An index is in point `t`'s output block iff each coordinate is in the block's range. -/
theorem mem_block (t : Fin cfg0.N) (i : S65536x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v8).slice (win0_3.rect t)).set ↔ _
  rw [View.set_slice_whole, Rect.mem_set_unit]
  exact Iff.rfl

/-- Every index of the output is in the block of the point its row names. -/
theorem covered (i : S65536x1024.Idx) :
    ∃ t : Fin cfg0.N, (cfg0.win 3).flush t = true ∧ i ∈ ((cfg0.win 3).blk t).view.set := by
  have hi0 : (i 0).val < 65536 := (i 0).isLt
  have hi1 : (i 1).val < 1024 := (i 1).isLt
  let t : Fin cfg0.N := Fin.cast N_0.symm ⟨(i 0).val / 1024, by omega⟩
  have ht : t.val = (i 0).val / 1024 := rfl
  obtain ⟨e00, e01, e10, e11, e20, e21, e30, e31⟩ := index_maps t
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- THE OUTPUT ARRAY after the run is the result array of the arguments. -/
theorem final (c : Dev nD) : (dats m 0 c).arrAt 3 cfg0.N = result m c :=
  (dats m 0 c).arrAt_eq_of_cover 3 (result m c) (fun t _ => flushed_eq m c t) covered

/-- The kernel's run: the output ends at the result array of the arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.KernelValue

end
-- ==== Proof.lean ====
/-
  A dense layer followed by four activations taken in turn over the columns, against its plain reference.

  Both programs compute, from `x` (65536 × 1024), `W` (1024 × 1024) and `b` (1024), the array whose entry `(r, o)` is the
  activation of class `o mod 4` — hyperbolic tangent, sine, positive part, logistic function — of
  `Σ_k x[r, k] · W[o, k] + b[o]`. The reference does this directly on the whole affine map, cutting it into the four
  classes and interleaving the results. The kernel first permutes the columns of `Wᵀ` and of `b` so that class `a`'s
  columns `4 j + a` sit together at `256 a + j`, multiplies a block of 1024 rows of `x` by that grouped matrix, applies each
  activation to one contiguous run of 256 columns, and un-permutes the columns before storing. The permutation and its
  inverse cancel entry by entry, the sum over `k` is the same sum on both sides, a change of float format is the
  identity on the extended reals, and the logistic function is the quotient `1 / (1 + e^(-y))` the reference spells out:
  the two results are one function of the arguments (`Cert.DenseActs.G`), with no use of the inputs' finiteness.

  The kernel's idealization rewrote nothing, so there is nothing to preserve beyond the program's own text.
-/
import proofs.«419013_j51281909514270_3_alg».proof.Defs
import proofs.«419013_j51281909514270_3_alg».proof.Proof.Gen.Kernel
import proofs.«419013_j51281909514270_3_alg».proof.Proof.Gen.Kernel.Skeleton
import proofs.«419013_j51281909514270_3_alg».proof.Proof.Gen.Kernel.Launch
import proofs.«419013_j51281909514270_3_alg».proof.Proof.Gen.Kernel.Points
import proofs.«419013_j51281909514270_3_alg».proof.Proof.Gen.Kernel.Frame
import proofs.«419013_j51281909514270_3_alg».proof.Proof.Gen.KernelIdeal
import proofs.«419013_j51281909514270_3_alg».proof.Proof.Gen.KernelIdeal.Skeleton
import proofs.«419013_j51281909514270_3_alg».proof.Proof.Gen.KernelIdeal.Launch
import proofs.«419013_j51281909514270_3_alg».proof.Proof.Gen.KernelIdeal.Points
import proofs.«419013_j51281909514270_3_alg».proof.Proof.Gen.KernelIdeal.Frame
import proofs.«419013_j51281909514270_3_alg».proof.Proof.Gen.ReferenceIdeal
import proofs.«419013_j51281909514270_3_alg».proof.Proof.Gen.Pre_finite_inputs
import proofs.«419013_j51281909514270_3_alg».proof.Proof.Gen.KernelIdeal.Value
import proofs.«419013_j51281909514270_3_alg».proof.Proof.Gen.ReferenceIdeal.Run
import proofs.«419013_j51281909514270_3_alg».proof.Proof.Gen.ReferenceIdeal.Read
import proofs.«419013_j51281909514270_3_alg».proof.Proof.RefSide
import proofs.«419013_j51281909514270_3_alg».proof.Proof.KernelValue
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on the three arguments, the kernel's output array and the reference's result are both the
    array `G` of those arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
